-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x128x128 : Shape := ⟨4, ![32, 64, 128, 128]⟩
abbrev S_ : Shape := ⟨0, ![]⟩

class Facts : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel

variable [Facts]

def fn {F : FTy → Type} [FloatOps F] (main_arg0 : FVec F S32x64x128x128 .f32) (main_arg1 : FVec F S32x64x128x128 .f32) : IVec S_ 1 :=
  let main_v0 : FVec F S32x64x128x128 .f32 := Host.absf main_arg0
  let main_cst : FVec F S_ .f32 := constant S_ .f32 0x7F800000#32
  let main_v1 : FVec F S32x64x128x128 .f32 := broadcastInDim S32x64x128x128 ![] bcast_S_S32x64x128x128 main_cst
  let main_v2 : IVec S32x64x128x128 1 := cmpf .olt main_v0 main_v1
  let main_c : IVec S_ 1 := constantI S_ 1 1#1
  let main_v3 : IVec S_ 1 := (fun x v => Host.reduce IntOp.andi x v reducesTo_S32x64x128x128_S_d0_1_2_3 h_S_) main_v2 main_c
  let main_v4 : FVec F S32x64x128x128 .f32 := Host.absf main_arg1
  let main_cst_0 : FVec F S_ .f32 := constant S_ .f32 0x7F800000#32
  let main_v5 : FVec F S32x64x128x128 .f32 := broadcastInDim S32x64x128x128 ![] bcast_S_S32x64x128x128 main_cst_0
  let main_v6 : IVec S32x64x128x128 1 := cmpf .olt main_v4 main_v5
  let main_c_1 : IVec S_ 1 := constantI S_ 1 1#1
  let main_v7 : IVec S_ 1 := (fun x v => Host.reduce IntOp.andi x v reducesTo_S32x64x128x128_S_d0_1_2_3 h_S_) main_v6 main_c_1
  let main_v8 : IVec S_ 1 := andi main_v3 main_v7
  main_v8
-- ==== Kernel.lean ====
abbrev S32x64x128x128 : Shape := ⟨4, ![32, 64, 128, 128]⟩
abbrev S2048x128x128 : Shape := ⟨3, ![2048, 128, 128]⟩
abbrev S32x8x128 : Shape := ⟨3, ![32, 8, 128]⟩
abbrev S64x128x128 : Shape := ⟨3, ![64, 128, 128]⟩
abbrev S1x8x128 : Shape := ⟨3, ![1, 8, 128]⟩
abbrev S64x128 : Shape := ⟨2, ![64, 128]⟩
abbrev S64x128x1 : Shape := ⟨3, ![64, 128, 1]⟩
abbrev S64x1 : Shape := ⟨2, ![64, 1]⟩
abbrev S64x1x1 : Shape := ⟨3, ![64, 1, 1]⟩
abbrev S1x1 : Shape := ⟨2, ![1, 1]⟩
abbrev S1x1x1 : Shape := ⟨3, ![1, 1, 1]⟩
abbrev S32x1x1 : Shape := ⟨3, ![32, 1, 1]⟩
abbrev S32 : Shape := ⟨1, ![32]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S32x64x128x128, .f32⟩
  | .hbm, ⟨1, _⟩ => ⟨S32x64x128x128, .f32⟩
  | .hbm, ⟨2, _⟩ => ⟨S2048x128x128, .f32⟩
  | .hbm, ⟨3, _⟩ => ⟨S2048x128x128, .f32⟩
  | .hbm, ⟨4, _⟩ => ⟨S32x8x128, .f32⟩
  | .hbm, ⟨5, _⟩ => ⟨S32x1x1, .f32⟩
  | .hbm, ⟨6, _⟩ => ⟨S32, .f32⟩
  | .hbm, ⟨7, _⟩ => ⟨S_, .f32⟩
  | .hbm, ⟨8, _⟩ => ⟨S_, .f32⟩
  | .local _ .vmem, ⟨0, _⟩ => ⟨S64x128x128, .f32⟩
  | .local _ .vmem, ⟨1, _⟩ => ⟨S64x128x128, .f32⟩
  | .local _ .vmem, ⟨2, _⟩ => ⟨S64x128x128, .f32⟩
  | .local _ .vmem, ⟨3, _⟩ => ⟨S64x128x128, .f32⟩
  | .local _ .vmem, ⟨4, _⟩ => ⟨S1x8x128, .f32⟩
  | .local _ .vmem, ⟨5, _⟩ => ⟨S1x8x128, .f32⟩
  | _, _ => ⟨S32x64x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S32x64x128x128_S2048x128x128 : S32x64x128x128.ShapeCasts S2048x128x128
  inb_S64x128x128_S64x128x128_0_0_0 : ∀ a, (![0, 0, 0] : Fin 3 → Nat) a + S64x128x128.size a ≤ S64x128x128.size a
  h_S64x128x128 : 0 < S64x128x128.numel
  shapeCasts_S64x128x128_S64x128x128 : S64x128x128.ShapeCasts S64x128x128
  reduces_S64x128x128_S64x128 : S64x128x128.Reduces [2] S64x128
  shapeCasts_S64x128_S64x128x1 : S64x128.ShapeCasts S64x128x1
  reduces_S64x128x1_S64x1 : S64x128x1.Reduces [1] S64x1
  shapeCasts_S64x1_S64x1x1 : S64x1.ShapeCasts S64x1x1
  reduces_S64x1x1_S1x1 : S64x1x1.Reduces [0] S1x1
  shapeCasts_S1x1_S1x1x1 : S1x1.ShapeCasts S1x1x1
  shapeCasts_S1x1x1_S1x1x1 : S1x1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S32x8x128_S32x1x1_0_0_0 : S32x8x128.Slices ![0, 0, 0] S32x1x1
  shapeCasts_S32x1x1_S32 : S32x1x1.ShapeCasts S32
  reducesTo_S32_S_d0 : S32.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x128x128.size a ≤ S2048x128x128.size a
  hwx0_0 : ∀ i : grid0.Coords, EltTy.bits .f32 = 32 ∨ (Rect.block (s := S2048x128x128) S64x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x128x128.size a ≤ S2048x128x128.size a
  hwx0_1 : ∀ i : grid0.Coords, EltTy.bits .f32 = 32 ∨ (Rect.block (s := S2048x128x128) S64x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S32x8x128.size a
  hwx0_2 : ∀ i : grid0.Coords, EltTy.bits .f32 = 32 ∨ (Rect.block (s := S32x8x128) S1x8x128.size (cc0_transform_2 i) (hinb0_2 i)).WholeWords (EltTy.packing .f32)

variable [Facts₀]

abbrev win0_0 : Pipeline.Window sig grid0 :=
  Pipeline.Window.ofSpec (Memref.whole main_v0) S64x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64x128x128 : Shape := ⟨4, ![32, 64, 128, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32x64x128x128, .f32⟩
  | .hbm, ⟨1, _⟩ => ⟨S32x64x128x128, .f32⟩
  | .hbm, ⟨2, _⟩ => ⟨S32x64x128x128, .f32⟩
  | .hbm, ⟨3, _⟩ => ⟨S32x64x128x128, .f32⟩
  | .hbm, ⟨4, _⟩ => ⟨S_, .f32⟩
  | .hbm, ⟨5, _⟩ => ⟨S32x64x128x128, .f32⟩
  | .hbm, ⟨6, _⟩ => ⟨S32x64x128x128, .i1⟩
  | .hbm, ⟨7, _⟩ => ⟨S_, .f32⟩
  | .hbm, ⟨8, _⟩ => ⟨S32x64x128x128, .f32⟩
  | .hbm, ⟨9, _⟩ => ⟨S32x64x128x128, .f32⟩
  | .hbm, ⟨10, _⟩ => ⟨S32x64x128x128, .f32⟩
  | .hbm, ⟨11, _⟩ => ⟨S_, .f32⟩
  | .hbm, ⟨12, _⟩ => ⟨S32x64x128x128, .f32⟩
  | .hbm, ⟨13, _⟩ => ⟨S32x64x128x128, .f32⟩
  | .hbm, ⟨14, _⟩ => ⟨S32x64x128x128, .f32⟩
  | .hbm, ⟨15, _⟩ => ⟨S_, .f32⟩
  | .hbm, ⟨16, _⟩ => ⟨S32x64x128x128, .f32⟩
  | .hbm, ⟨17, _⟩ => ⟨S32x64x128x128, .i1⟩
  | .hbm, ⟨18, _⟩ => ⟨S_, .f32⟩
  | .hbm, ⟨19, _⟩ => ⟨S_, .f32⟩
  | .hbm, ⟨20, _⟩ => ⟨S32x64x128x128, .f32⟩
  | .hbm, ⟨21, _⟩ => ⟨S32x64x128x128, .f32⟩
  | .hbm, ⟨22, _⟩ => ⟨S_, .f32⟩
  | .hbm, ⟨23, _⟩ => ⟨S_, .f32⟩
  | _, _ => ⟨S32x64x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S32x64x128x128 : S_.BroadcastsInDim S32x64x128x128 (![] : Fin 0 → Fin S32x64x128x128.rank)
  reducesTo_S32x64x128x128_S_d0_1_2_3 : S32x64x128x128.ReducesTo [0, 1, 2, 3] S_
  h_S_ : 0 < S_.numel

variable [Facts₀]

class Facts : Prop extends Facts₀ where

variable [Facts]
-- ==== Proof.Spec.lean ====
/-
  The quantity both programs compute, as one function of the two argument arrays over the extended reals.

  For one pair of elements (o, t) the masked smooth-L1 term is
      0                          where t = 0,
      (1/2 · |o − t|) · |o − t|  where t ≠ 0 and |o − t| < 1,
      |o − t| − 1/2              where t ≠ 0 and 1 ≤ |o − t|,
  and the result is the sum of that term over every index of the [32, 64, 128, 128] arrays, added to the sum's
  initial value 0.  The three literals (0, 1, 1/2) are kept as their binary words: the same words appear on both
  sides and are never evaluated.

  Addition of extended reals is commutative and associative, so a sum over the four-axis index set may be taken
  one axis at a time in any nesting (`sum_idx4`): no finiteness of the inputs is used anywhere.
-/
import Idealize.ShloMosaic.PureOps.Ideal
import Idealize.ShloMosaic.Lib.ValueIdx

noncomputable section

open scoped BigOperators

namespace Cert.SmoothL1

open Idealize.ShloMosaic Idealize.ShloMosaic.ValueIdx

/-- The masked smooth-L1 term of one pair of elements, written with the float operations read at the extended
    reals: the mask is "t differs from 0", the inner branch is "|o − t| is below 1". -/
def term (o t : Ideal .f32) : Ideal .f32 :=
  Scalar.select (FloatOps.cmpf .one t (FloatOps.ofBits .f32 0x00000000#32))
    (Scalar.select (FloatOps.cmpf .olt (FloatOps.absf (FloatOps.subf o t)) (FloatOps.ofBits .f32 0x3F800000#32))
      (FloatOps.mulf (FloatOps.mulf (FloatOps.ofBits .f32 0x3F000000#32) (FloatOps.absf (FloatOps.subf o t)))
        (FloatOps.absf (FloatOps.subf o t)))
      (FloatOps.subf (FloatOps.absf (FloatOps.subf o t)) (FloatOps.ofBits .f32 0x3F000000#32)))
    (FloatOps.ofBits .f32 0x00000000#32)

/-- The sum of the term over one [64, 128, 128] block, innermost axis first: the lanes of a row, then the rows of a
    slice, then the 64 slices. -/
def blockSum (x0 x1 : (⟨3, ![64, 128, 128]⟩ : Shape).Idx → Ideal .f32) : Ideal .f32 :=
  ∑ a : Fin 64, ∑ h : Fin 128, ∑ w : Fin 128, term (x0 (ix3 a h w)) (x1 (ix3 a h w))

/-- The sum of the term over every index of the two [32, 64, 128, 128] arrays. -/
def total (out tgt : (⟨4, ![32, 64, 128, 128]⟩ : Shape).Idx → Ideal .f32) : Ideal .f32 :=
  ∑ i, term (out i) (tgt i)

/-- A rank-1 index set is its one coordinate range. -/
def idxEquiv1 {n : Nat} : (⟨1, ![n]⟩ : Shape).Idx ≃ Fin n where
  toFun i := i 0
  invFun a := ix1 a
  left_inv i := (eq_ix1 i).symm
  right_inv _ := rfl

/-- So a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- So a sum over it is the fourfold sum over the coordinates, outermost axis first. -/
theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f]
  simp only [Fintype.sum_prod_type]
  rfl

/-- The partial sum of group t: the block sum of the 64 slices (t, 0 … 63) of the two arrays. -/
def part (out tgt : (⟨4, ![32, 64, 128, 128]⟩ : Shape).Idx → Ideal .f32) (t : Fin 32) : Ideal .f32 :=
  blockSum (fun j => out (ix4 t (j 0) (j 1) (j 2))) (fun j => tgt (ix4 t (j 0) (j 1) (j 2)))

/-- The total is the sum of the 32 partial sums. -/
theorem total_eq_parts (out tgt : (⟨4, ![32, 64, 128, 128]⟩ : Shape).Idx → Ideal .f32) :
    total out tgt = ∑ t : Fin 32, part out tgt t := by
  unfold total part blockSum
  rw [sum_idx4]

end Cert.SmoothL1

end
-- ==== Proof.RefValue.lean ====
/-
  The reference's result as the specification's total.

  The reference computes, element by element, d = |out − target|, the branch 1/2·d·d where d < 1 and d − 1/2
  elsewhere, keeps it where target ≠ 0 and puts 0 elsewhere, and sums the whole [32, 64, 128, 128] array into a
  scalar from the initial value 0.  Read at one index the masked array is `SmoothL1.term` of the two arguments'
  elements there (the host's absolute value is the kernel's, and "not equal" has one meaning on the extended reals,
  which have no unordered pair); the scalar is then the initial value plus the sum of the terms over every index.
-/
import proofs.«421961_j23759759082228_3_alg».proof.Proof.Gen.ReferenceIdeal.Run
import proofs.«421961_j23759759082228_3_alg».proof.Proof.Gen.ReferenceIdeal.Read
import proofs.«421961_j23759759082228_3_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-- The masked array at an index is the term of the two arguments' elements at that index. -/
theorem masked_apply (x0 x1 : S32x64x128x128.Idx → Ideal .f32) (i : S32x64x128x128.Idx) :
    val_main_v12 (F := Ideal) x0 x1 i = Cert.SmoothL1.term (x0 i) (x1 i) := by
  rw [val_main_v12_apply, val_main_v11_apply, val_main_v10_apply, val_main_cst_2_apply, val_main_call1_v1_apply,
    val_main_call1_v0_apply, val_main_cst_3_apply, val_main_v9_apply, val_main_v3_apply, val_main_v2_apply,
    val_main_cst_apply, val_main_v6_apply, val_main_v5_apply, val_main_v4_apply, val_main_cst_0_apply,
    val_main_v8_apply, val_main_v7_apply, val_main_cst_1_apply, val_main_v1_apply, val_main_v0_apply]
  rfl

/-- The reference's scalar: the sum's initial value plus the total of the terms. -/
theorem result_eq (x0 x1 : S32x64x128x128.Idx → Ideal .f32) :
    val_main_v13 (F := Ideal) x0 x1 = fun _ => FloatOps.ofBits .f32 0x00000000#32 + Cert.SmoothL1.total x0 x1 := by
  funext i
  rw [val_main_v13_apply, val_main_cst_4_apply]
  unfold Cert.SmoothL1.total
  exact congrArg (FloatOps.ofBits (F := Ideal) .f32 0x00000000#32 + ·) (Finset.sum_congr rfl fun j _ => masked_apply x0 x1 j)

end Cert.ReferenceIdeal.RefValue

end
-- ==== Proof.KernelPayload.lean ====
/-
  What one grid point's body stores, read at an index.

  The body loads the two [64, 128, 128] blocks, forms the masked smooth-L1 term element by element, sums it along
  the lanes (axis 2), then along the rows (axis 1), then along the 64 slices (axis 0), each time from the zero word,
  and broadcasts the one remaining value over the [1, 8, 128] output block.  So every element of the stored block is
  the block sum of the specification.
-/
import proofs.«421961_j23759759082228_3_alg».proof.Proof.Gen.KernelIdeal.Skeleton
import proofs.«421961_j23759759082228_3_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.KValue

open Cert.KernelIdeal Cert.KernelIdeal.Gen Idealize.ShloMosaic Idealize.ShloMosaic.ValueIdx

/-- A lane sum of a [64, 128, 128] vector at (a, h): the sum over the 128 lanes of row h of slice a. -/
theorem laneSum_apply (v : FVec Ideal S64x128x128 .f32) (hφ : FKind.Formats .f32) (hacc : (0x00000000#32 : BitVec 32) = FKind.add.neutral .f32 hφ) (a : Fin 64) (h : Fin 128) :
    multiReduction .add [2] S64x128 v 0x00000000#32 reduces_S64x128x128_S64x128 hφ hacc (ix2 a h)
      = ∑ w : Fin 128, v (ix3 a h w) := by
  refine (Ideal.multiReduction_add_single v 0x00000000#32 reduces_S64x128x128_S64x128 hφ hacc (ix2 a h)).trans ?_
  refine Finset.sum_congr rfl fun w _ => congrArg v ?_
  funext d; match d with | ⟨0, _⟩ => rfl | ⟨1, _⟩ => rfl | ⟨2, _⟩ => rfl

/-- A sum along the rows of a [64, 128, 1] vector at (a, 0): the sum over the 128 rows of slice a. -/
theorem rowSum_apply (v : FVec Ideal S64x128x1 .f32) (hφ : FKind.Formats .f32) (hacc : (0x00000000#32 : BitVec 32) = FKind.add.neutral .f32 hφ) (a : Fin 64) :
    multiReduction .add [1] S64x1 v 0x00000000#32 reduces_S64x128x1_S64x1 hφ hacc (ix2 a 0)
      = ∑ h : Fin 128, v (ix3 a h 0) := by
  refine (Ideal.multiReduction_add_single v 0x00000000#32 reduces_S64x128x1_S64x1 hφ hacc (ix2 a 0)).trans ?_
  refine Finset.sum_congr rfl fun h _ => congrArg v ?_
  funext d; match d with | ⟨0, _⟩ => rfl | ⟨1, _⟩ => rfl | ⟨2, _⟩ => rfl

/-- A sum along the slices of a [64, 1, 1] vector at (0, 0): the sum over the 64 slices. -/
theorem sliceSum_apply (v : FVec Ideal S64x1x1 .f32) (hφ : FKind.Formats .f32) (hacc : (0x00000000#32 : BitVec 32) = FKind.add.neutral .f32 hφ) :
    multiReduction .add [0] S1x1 v 0x00000000#32 reduces_S64x1x1_S1x1 hφ hacc (ix2 0 0)
      = ∑ a : Fin 64, v (ix3 a 0 0) := by
  refine (Ideal.multiReduction_add_single v 0x00000000#32 reduces_S64x1x1_S1x1 hφ hacc (ix2 0 0)).trans ?_
  refine Finset.sum_congr rfl fun a _ => congrArg v ?_
  funext d; match d with | ⟨0, _⟩ => rfl | ⟨1, _⟩ => rfl | ⟨2, _⟩ => rfl

/-- Every element of the stored block is the block sum of the two loaded blocks. -/
theorem pay_apply (x0 x1 : FVec Ideal S64x128x128 .f32) (y : S1x8x128.Idx) :
    k0_pay1 (F := Ideal) x0 x1 y = Cert.SmoothL1.blockSum x0 x1 := by
  unfold k0_pay1
  simp only [shapeCast_self]
  -- the broadcast reads the one value, the cast before it keeps it
  refine (broadcastTo_apply _ broadcasts_S1x1x1_S1x8x128 y (ix3 0 0 0) ?_).trans ?_
  · intro a; match a with | ⟨0, _⟩ => rfl | ⟨1, _⟩ => rfl | ⟨2, _⟩ => rfl
  refine (shapeCast_apply _ shapeCasts_S1x1_S1x1x1 (ix3 0 0 0) (ix2 0 0) ?_).trans ?_
  · rw [Shape.rowMajor_val_two, Shape.rowMajor_val_three]; rfl
  -- the sum over the slices
  refine (sliceSum_apply _ _ _).trans ?_
  unfold Cert.SmoothL1.blockSum
  refine Finset.sum_congr rfl fun a _ => ?_
  refine (shapeCast_apply _ shapeCasts_S64x1_S64x1x1 (ix3 a 0 0) (ix2 a 0) ?_).trans ?_
  · rw [Shape.rowMajor_val_two, Shape.rowMajor_val_three]
    show a.val * 1 + 0 = (a.val * 1 + 0) * 1 + 0
    omega
  -- the sum over the rows of slice a
  refine (rowSum_apply _ _ _ a).trans ?_
  refine Finset.sum_congr rfl fun h _ => ?_
  refine (shapeCast_apply _ shapeCasts_S64x128_S64x128x1 (ix3 a h 0) (ix2 a h) ?_).trans ?_
  · rw [Shape.rowMajor_val_two, Shape.rowMajor_val_three]
    show a.val * 128 + h.val = (a.val * 128 + h.val) * 1 + 0
    omega
  -- the sum over the lanes of row h of slice a; the summand is the term, operation by operation
  refine (laneSum_apply _ _ _ a h).trans ?_
  refine Finset.sum_congr rfl fun w _ => ?_
  rfl

end Cert.KernelIdeal.KValue

end
-- ==== Proof.KernelBlocks.lean ====
/-
  From one grid point's block to the array of partial sums.

  Before the region the two [32, 64, 128, 128] arguments are reshaped to [2048, 128, 128]; grid point t loads slices
  64t … 64t + 63 of each, which are the slices (t, 0 … 63) of the arguments (same row-major position).  The point
  stores its block sum, replicated, into block t of the [32, 8, 128] result, so what it writes back is block t of the
  array whose element (t, ·, ·) is the partial sum of group t; the 32 blocks tile that array, which therefore ends
  holding exactly that.
-/
import proofs.«421961_j23759759082228_3_alg».proof.Proof.Gen.KernelIdeal.Frame
import proofs.«421961_j23759759082228_3_alg».proof.Proof.KernelPayload
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

theorem hz3 : (![0, 0, 0] : Fin 3 → Nat) = fun _ => 0 := funext fun a => by fin_cases a <;> rfl

/-- The printed index maps over the grid: at point t every window is at block t along its leading axis and at block 0
    along the other two. -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The region finds the first operand's array as the first argument reshaped. -/
theorem V_main_v0 (c : Dev nD) :
    (V m c main_v0 : S2048x128x128.Idx → Ideal .f32)
      = shapeCast S2048x128x128 (m ((c : Thread nD τ).loc main_arg0)) shapeCasts_S32x64x128x128_S2048x128x128 := by
  show StableHlo.after hostOps0 (fun b => m (c, b)) (Proc.devRef .tc main_v0) = _
  after_results
  rfl

/-- The region finds the second operand's array as the second argument reshaped. -/
theorem V_main_v1 (c : Dev nD) :
    (V m c main_v1 : S2048x128x128.Idx → Ideal .f32)
      = shapeCast S2048x128x128 (m ((c : Thread nD τ).loc main_arg1)) shapeCasts_S32x64x128x128_S2048x128x128 := by
  show StableHlo.after hostOps0 (fun b => m (c, b)) (Proc.devRef .tc main_v1) = _
  after_results
  rfl

/-- Element (a, h, w) of the first operand's block at point t is element (t, a, h, w) of the first argument: slice
    64·t + a of the reshaped array sits at the same row-major position. -/
theorem iblk0_apply (c : Dev nD) (t : Fin cfg0.N) (a : Fin 64) (h w : Fin 128) (p : Fin 32) (hp : p.val = t.val) :
    (iblk m c 0 t : Vec Ideal S64x128x128 .f32) (ix3 a h w)
      = (m ((c : Thread nD τ).loc main_arg0) : S32x64x128x128.Idx → Ideal .f32) (ix4 p a h w) := by
  obtain ⟨e0, e1, e2, -⟩ := idx_facts t
  unfold iblk
  rw [View.read_apply]
  show V m c main_v0 (((cfg0.win 0).blk t).view.emb (ix3 a h w)) = _
  rw [V_main_v0]
  refine shapeCast_apply _ _ _ (ix4 p a h w) ?_
  rw [Shape.rowMajor_val_four, Shape.rowMajor_val_three]
  show ((p.val * 64 + a.val) * 128 + h.val) * 128 + w.val
    = ((win0_0.index t 0 * 64 + 1 * a.val) * 128 + (win0_0.index t 1 * 128 + 1 * h.val)) * 128 + (win0_0.index t 2 * 128 + 1 * w.val)
  rw [e0, e1, e2, hp]
  omega

/-- The same for the second operand and the second argument. -/
theorem iblk1_apply (c : Dev nD) (t : Fin cfg0.N) (a : Fin 64) (h w : Fin 128) (p : Fin 32) (hp : p.val = t.val) :
    (iblk m c 1 t : Vec Ideal S64x128x128 .f32) (ix3 a h w)
      = (m ((c : Thread nD τ).loc main_arg1) : S32x64x128x128.Idx → Ideal .f32) (ix4 p a h w) := by
  obtain ⟨-, -, -, e0, e1, e2, -⟩ := idx_facts t
  unfold iblk
  rw [View.read_apply]
  show V m c main_v1 (((cfg0.win 1).blk t).view.emb (ix3 a h w)) = _
  rw [V_main_v1]
  refine shapeCast_apply _ _ _ (ix4 p a h w) ?_
  rw [Shape.rowMajor_val_four, Shape.rowMajor_val_three]
  show ((p.val * 64 + a.val) * 128 + h.val) * 128 + w.val
    = ((win0_1.index t 0 * 64 + 1 * a.val) * 128 + (win0_1.index t 1 * 128 + 1 * h.val)) * 128 + (win0_1.index t 2 * 128 + 1 * w.val)
  rw [e0, e1, e2, hp]
  omega

/-- The array of partial sums: element (t, ·, ·) is the partial sum of group t of the two arguments. -/
def partials (out tgt : S32x64x128x128.Idx → Ideal .f32) : S32x8x128.Idx → Ideal .f32 :=
  fun i => Cert.SmoothL1.part out tgt (i 0)

/-- What point t writes back is block t of the array of partial sums. -/
theorem flushed_eq (c : Dev nD) (t : Fin cfg0.N) :
    (dats m 0 c).flushed 2 t
      = ((cfg0.win 2).blk t).view.read (Elt Ideal)
          (partials (m ((c : Thread nD τ).loc main_arg0)) (m ((c : Thread nD τ).loc main_arg1))) := by
  show (cfg0.win 2).cut (grid0.coords t) ((dats m 0 c).after 2 t) = _
  rw [after0_2]
  unfold out0_2
  rw [View.canon_unit_zero hz3]
  simp only [View.ld_unit_zero (S := S64x128x128) hz3]
  funext y
  obtain ⟨-, -, -, -, -, -, e6, -⟩ := idx_facts t
  have hN : cfg0.N = 32 := N_0
  have hy : (y 0).val < 1 := (y 0).isLt
  have hp : (((cfg0.win 2).blk t).view.emb y (0 : Fin 3)).val = t.val := by
    show win0_2.index t 0 * 1 + 1 * (y 0).val = t.val
    rw [e6]; omega
  show k0_pay1 (F := Ideal) (iblk m c 0 t) (iblk m c 1 t) y
    = Cert.SmoothL1.part (m ((c : Thread nD τ).loc main_arg0)) (m ((c : Thread nD τ).loc main_arg1)) (((cfg0.win 2).blk t).view.emb y (0 : Fin 3))
  refine (pay_apply _ _ y).trans ?_
  unfold Cert.SmoothL1.part Cert.SmoothL1.blockSum
  refine Finset.sum_congr rfl fun a _ => Finset.sum_congr rfl fun h _ => Finset.sum_congr rfl fun w _ => ?_
  show Cert.SmoothL1.term ((iblk m c 0 t : Vec Ideal S64x128x128 .f32) (ix3 a h w)) ((iblk m c 1 t : Vec Ideal S64x128x128 .f32) (ix3 a h w)) = _
  rw [iblk0_apply m c t a h w _ hp, iblk1_apply m c t a h w _ hp]

/-- An index of the result array is in point t's block iff each coordinate is in the block's range on its axis. -/
theorem mem_blk (t : Fin cfg0.N) (i : S32x8x128.Idx) :
    i ∈ ((cfg0.win 2).blk t).view.set
      ↔ ∀ a : Fin 3, win0_2.index t a * S1x8x128.size a ≤ (i a).val ∧ (i a).val < win0_2.index t a * S1x8x128.size a + S1x8x128.size a := by
  show i ∈ ((View.whole main_v2).slice (win0_2.rect t)).set ↔ _
  rw [View.set_slice_whole, Rect.mem_set_unit]
  exact Iff.rfl

/-- The result array after the run is the array of partial sums: index (t, r, l) lies in point t's block. -/
theorem final (c : Dev nD) :
    (dats m 0 c).arrAt 2 cfg0.N = partials (m ((c : Thread nD τ).loc main_arg0)) (m ((c : Thread nD τ).loc main_arg1)) :=
  (dats m 0 c).arrAt_eq_of_cover 2 _ (fun t _ => flushed_eq m c t) fun i => by
    have hN : cfg0.N = 32 := N_0
    have hi0 : (i 0).val < 32 := (i 0).isLt
    have hi1 : (i 1).val < 8 := (i 1).isLt
    have hi2 : (i 2).val < 128 := (i 2).isLt
    obtain ⟨-, -, -, -, -, -, e6, e7, e8⟩ := idx_facts ⟨(i 0).val, by omega⟩
    refine ⟨⟨(i 0).val, by omega⟩, flush0_2 _, ?_⟩
    rw [mem_blk]
    intro a
    match a with
    | ⟨0, _⟩ =>
      show win0_2.index ⟨(i 0).val, _⟩ 0 * 1 ≤ (i 0).val ∧ (i 0).val < win0_2.index ⟨(i 0).val, _⟩ 0 * 1 + 1
      rw [e6]; show (i 0).val * 1 ≤ (i 0).val ∧ (i 0).val < (i 0).val * 1 + 1; omega
    | ⟨1, _⟩ =>
      show win0_2.index ⟨(i 0).val, _⟩ 1 * 8 ≤ (i 1).val ∧ (i 1).val < win0_2.index ⟨(i 0).val, _⟩ 1 * 8 + 8
      rw [e7]; omega
    | ⟨2, _⟩ =>
      show win0_2.index ⟨(i 0).val, _⟩ 2 * 128 ≤ (i 2).val ∧ (i 2).val < win0_2.index ⟨(i 0).val, _⟩ 2 * 128 + 128
      rw [e8]; omega

end Cert.KernelIdeal.KValue

end
-- ==== Proof.KernelRun.lean ====
/-
  The kernel program's scalar result.

  After the region the host takes element (t, 0, 0) of each of the 32 blocks of the array of partial sums, lays the
  32 values out as a vector and sums it from the initial value 0.  Element (t, 0, 0) is the partial sum of group t,
  and the 32 partial sums add up to the total, so the result is the initial value plus the specification's total.
-/
import proofs.«421961_j23759759082228_3_alg».proof.Proof.KernelBlocks

noncomputable section

open scoped BigOperators

open Idealize.ShloMosaic Idealize.ShloMosaic.TcCoe Idealize.SL.Sem
open Idealize.ShloMosaic.Pipeline (Dat)

namespace Cert.KernelIdeal.KValue

open Cert.KernelIdeal Cert.KernelIdeal.Gen Idealize.ShloMosaic.ValueIdx

variable (m : (ℓ : Loc nD τ sig) → Buf (Elt Ideal) ℓ) (ρ : Dev nD → PrngReg)

/-- The scalar the kernel program ends with: the sum's initial value plus the total of the terms. -/
def result (c : Dev nD) : Buf (Elt Ideal) ((c : Thread nD τ).loc main_v5) :=
  fun _ => FloatOps.ofBits .f32 0x00000000#32
    + Cert.SmoothL1.total (m ((c : Thread nD τ).loc main_arg0)) (m ((c : Thread nD τ).loc main_arg1))

/-- The host operations after the region, applied to the array of partial sums, give that scalar. -/
theorem tail_eq (c : Dev nD) :
    Pipeline.afterTail₀ cfgs (dats m) 0 (V0 m) [hostOps1] c main_v5 = result m c := by
  unfold Pipeline.afterTail₀
  show StableHlo.after hostOps1 _ (Proc.devRef .tc main_v5) = _
  after_results
  -- the region's result array is the array of partial sums
  have hA : (Pipeline.withArrays (cfgs 0).spec c (V0 m c) (fun w => (dats m 0 c).arrAt w (cfgs 0).N) (Proc.devRef .tc main_v2)
        : S32x8x128.Idx → Ideal .f32)
      = partials (m ((c : Thread nD τ).loc main_arg0)) (m ((c : Thread nD τ).loc main_arg1)) :=
    (Pipeline.withArrays_arr spec0 launch0.win.arr_inj c _ _ 2).trans (final m c)
  rw [hA]
  funext j
  unfold result
  simp only [Host.reduceAdd, Ideal.hostReduceAdd_def]
  -- the host's sum over the 32 values, then each value is one partial sum
  refine (Ideal.hostReduceAdd_total reducesTo_S32_S_d0 (fun b => b.elim0) _ _ j).trans ?_
  rw [Cert.SmoothL1.total_eq_parts, Cert.SmoothL1.sum_idx1]
  refine congrArg₂ (· + ·) rfl (Finset.sum_congr rfl fun t _ => ?_)
  -- entry t of the vector is element (t, 0, 0) of the array, the partial sum of group t
  refine (shapeCast_apply _ shapeCasts_S32x1x1_S32 (ix1 t) (ix3 t 0 0) ?_).trans ?_
  · rw [Shape.rowMajor_val_three, Shape.rowMajor_val_one]
    show (t.val * 1 + 0) * 1 + 0 = t.val
    omega
  refine (extractStridedSlice_apply _ _ slices_S32x8x128_S32x1x1_0_0_0 (ix3 t 0 0) (ix3 t 0 0) ?_).trans ?_
  · intro a
    match a with
    | ⟨0, _⟩ => show t.val = 0 + t.val; omega
    | ⟨1, _⟩ => rfl
    | ⟨2, _⟩ => rfl
  rfl

/-- The kernel program's run, read: it ends with that scalar and with its arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v5 (Pipeline.mem_restRefs_of main_v5 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.KValue

end
-- ==== Proof.lean ====
/-
  The certificate: a masked smooth-L1 loss summed over two [32, 64, 128, 128] arrays.

  The kernel program reshapes both arguments to [2048, 128, 128], lets each of 32 grid points sum the masked term over
  its 64 slices (lanes, then rows, then slices) and store the sum replicated over an [1, 8, 128] block, and on the host
  takes one replica per block and adds the 32 values up from 0.  The reference forms the same term element by element
  and adds all of it up from 0 in one reduction.  Over the extended reals both are the initial value plus the sum of the
  term over every index: addition there is commutative and associative, so grouping the sum by blocks and by axes
  changes nothing, and no finiteness of the inputs is needed.

  Modules: `Spec` (the term, the total, the regrouping of the sum), `RefValue` (the reference's result is the total),
  `KernelPayload` (what a grid point stores, read at an index), `KernelBlocks` (the array of partial sums after the
  region), `KernelRun` (the host operations after the region, and the kernel program's run).  The three frames are the
  generated ones (the reference's is its generated run with the result dropped); the idealization rewrote nothing, so
  the preservation claim is trivial.
-/
import proofs.«421961_j23759759082228_3_alg».proof.Defs
import proofs.«421961_j23759759082228_3_alg».proof.Proof.Gen.Kernel
import proofs.«421961_j23759759082228_3_alg».proof.Proof.Gen.Kernel.Skeleton
import proofs.«421961_j23759759082228_3_alg».proof.Proof.Gen.Kernel.Launch
import proofs.«421961_j23759759082228_3_alg».proof.Proof.Gen.Kernel.Points
import proofs.«421961_j23759759082228_3_alg».proof.Proof.Gen.Kernel.Frame
import proofs.«421961_j23759759082228_3_alg».proof.Proof.Gen.KernelIdeal
import proofs.«421961_j23759759082228_3_alg».proof.Proof.Gen.KernelIdeal.Skeleton
import proofs.«421961_j23759759082228_3_alg».proof.Proof.Gen.KernelIdeal.Launch
import proofs.«421961_j23759759082228_3_alg».proof.Proof.Gen.KernelIdeal.Points
import proofs.«421961_j23759759082228_3_alg».proof.Proof.Gen.KernelIdeal.Frame
import proofs.«421961_j23759759082228_3_alg».proof.Proof.Gen.ReferenceIdeal
import proofs.«421961_j23759759082228_3_alg».proof.Proof.Gen.ReferenceIdeal.Run
import proofs.«421961_j23759759082228_3_alg».proof.Proof.Gen.ReferenceIdeal.Read
import proofs.«421961_j23759759082228_3_alg».proof.Proof.Gen.Pre_finite_inputs
import proofs.«421961_j23759759082228_3_alg».proof.Proof.RefValue
import proofs.«421961_j23759759082228_3_alg».proof.Proof.KernelRun
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the extended reals. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both programs end with the initial value plus the total of the masked
    smooth-L1 terms of the arguments. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq, (hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
